-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x1024, .f32⟩
  | .hbm, ⟨8, _⟩ => ⟨S4x1024x1024, .bf16⟩
  | .hbm, ⟨9, _⟩ => ⟨S4x1024x1024, .f32⟩
  | .hbm, ⟨10, _⟩ => ⟨S4x1024x1024, .bf16⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024, .f32⟩
  | .local _ .vmem, ⟨8, _⟩ => ⟨S4x1024x1024, .bf16⟩
  | .local _ .vmem, ⟨9, _⟩ => ⟨S4x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024x1024.size a ≤ S4x1024x1024.size a
  hwx0_5 : ∀ i : grid0.Coords, EltTy.bits .bf16 = 32 ∨ (Rect.block (s := S4x1024x1024) S4x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x16384, .f32⟩
  | .hbm, ⟨8, _⟩ => ⟨S4x16384x1024, .f32⟩
  | .hbm, ⟨9, _⟩ => ⟨S4x1x1024, .f32⟩
  | .hbm, ⟨10, _⟩ => ⟨S4x16384x1024, .f32⟩
  | .hbm, ⟨11, _⟩ => ⟨S4x16384x1024, .f32⟩
  | .hbm, ⟨12, _⟩ => ⟨S4x1024x16384, .f32⟩
  | .hbm, ⟨13, _⟩ => ⟨S4x16384x1024, .f32⟩
  | .hbm, ⟨14, _⟩ => ⟨S4x1x1024, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S1x16384x1024, .f32⟩
  | .hbm, ⟨19, _⟩ => ⟨S16384x1024, .f32⟩
  | .hbm, ⟨20, _⟩ => ⟨S16384x1024, .f32⟩
  | .hbm, ⟨21, _⟩ => ⟨S1x16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S1x16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S1x16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  slices_S4x16384x1024_S1x16384x1024_1_0_0 : S4x16384x1024.Slices ![1, 0, 0] S1x16384x1024
  bcast_S_S16384x1024 : S_.BroadcastsInDim S16384x1024 (![] : Fin 0 → Fin S16384x1024.rank)
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.CellSpec.lean ====
/-
  The LSTM cell as one function of its seven arrays, over the extended reals.

  For a batch row b and a hidden unit j, gate g (0 the candidate, 1 the input gate, 2 the forget gate, 3 the output
  gate) has the pre-activation
      pre g b j = ∑ₖ x[b,k]·Wx[g,j,k] + ∑ₖ h[b,k]·Rh[g,j,k] + bx[g,j] + bh[g,j],
  the new cell state is  σ(pre 2)·c[b,j] + σ(pre 1)·tanh(pre 0)  and the new hidden state  σ(pre 3)·tanh(new cell),
  where σ v = 1 / (1 + e^(−v)) with the conventions of the extended reals at the infinities.

  Also here, because they mention no program: the two laws that join the two ways the sums are arranged — four terms
  regrouped in pairs (a commutative monoid suffices: no finiteness), and a finite sum of products with the factors
  swapped.
-/
import Idealize.ShloMosaic.Lib.ValueIdx
import Idealize.ShloMosaic.PureOps.Ideal

noncomputable section

namespace Cert.LstmCell

open Idealize.ShloMosaic Idealize.ShloMosaic.ValueIdx
open scoped BigOperators

/-- The activations' shape, [batch, hidden]; the two weight stacks', [gate, hidden, contracted]; the biases', [gate, hidden]. -/
abbrev Acts : Shape := ⟨2, ![16384, 1024]⟩
abbrev Wts : Shape := ⟨3, ![4, 1024, 1024]⟩
abbrev Bias : Shape := ⟨2, ![4, 1024]⟩

section
variable (x hp cp : Acts.Idx → EReal) (Wx Rh : Wts.Idx → EReal) (bx bh : Bias.Idx → EReal)

/-- Gate g's pre-activation at batch row b and hidden unit j. -/
def pre (g : Fin 4) (b : Fin 16384) (j : Fin 1024) : EReal :=
  (∑ k : Fin 1024, x (ix2 b k) * Wx (ix3 g j k)) + (∑ k : Fin 1024, hp (ix2 b k) * Rh (ix3 g j k)) + bx (ix2 g j) + bh (ix2 g j)

/-- The new cell state: forget gate times the old state, plus input gate times candidate. -/
def cell (b : Fin 16384) (j : Fin 1024) : EReal :=
  Ideal.logistic (pre x hp Wx Rh bx bh 2 b j) * cp (ix2 b j)
    + Ideal.logistic (pre x hp Wx Rh bx bh 1 b j) * Ideal.tanh (pre x hp Wx Rh bx bh 0 b j)

/-- The new hidden state: output gate times tanh of the new cell state. -/
def hidden (b : Fin 16384) (j : Fin 1024) : EReal :=
  Ideal.logistic (pre x hp Wx Rh bx bh 3 b j) * Ideal.tanh (cell x hp cp Wx Rh bx bh b j)

/-- The two result arrays. -/
def cellArr : Acts.Idx → EReal := fun i => cell x hp cp Wx Rh bx bh (i 0) (i 1)
def hiddenArr : Acts.Idx → EReal := fun i => hidden x hp cp Wx Rh bx bh (i 0) (i 1)

theorem cellArr_apply (b : Fin 16384) (j : Fin 1024) :
    cellArr x hp cp Wx Rh bx bh (ix2 b j) = cell x hp cp Wx Rh bx bh b j := rfl

theorem hiddenArr_apply (b : Fin 16384) (j : Fin 1024) :
    hiddenArr x hp cp Wx Rh bx bh (ix2 b j) = hidden x hp cp Wx Rh bx bh b j := rfl

end

/-- Two products-plus-bias, added, are the two products added and then the two biases: four terms regrouped. -/
theorem pairs_regroup (p q s t : EReal) : (p + s) + (q + t) = p + q + s + t := by
  rw [add_add_add_comm, add_assoc (p + q)]

/-- A finite sum of products with every product's factors swapped. -/
theorem sum_mul_swap {K : ℕ} (u v : Fin K → EReal) : (∑ k : Fin K, u k * v k) = ∑ k : Fin K, v k * u k :=
  Finset.sum_congr rfl fun k _ => mul_comm (u k) (v k)

/-- The quotient 1 / (1 + e^(−v)) is σ v, at every extended real. -/
theorem one_div_one_add_exp_neg (v : EReal) : Ideal.div 1 (1 + Ideal.exp (-v)) = Ideal.logistic v := rfl

end Cert.LstmCell

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.BodyCell.lean ====
/-
  What the kernel body stores, read at one entry of its [256, 1024] block.

  The body loads the point's rows of x, h and c, and for each gate g the g-th [1024, 1024] slab of the two
  pre-transposed weight stacks and the g-th row of the two biases. A gate's pre-activation block is
  x·W + h·R (two matrix products into a zero accumulator, the operands' change of float format being the identity
  over the extended reals) plus the two bias rows broadcast down the block. At entry (p, q) that is
      ∑ₖ X[p,k]·W[0,k,q] + ∑ₖ H[p,k]·R[0,k,q] + a[0,q] + d[0,q]:
  each product by the general matrix-product lemma, each slab's and row's leading unit axis dropped by its cast,
  the row read under the broadcast. The stored cell block is σ(gate 2)·C + σ(gate 1)·tanh(gate 0) and the stored
  hidden block σ(gate 3)·tanh(cell block), entry by entry.

  If the loaded rows are rows b of the arrays and the loaded slab and bias row are gate g's (the slab transposed back),
  the entry is the specification's pre-activation, hence the two stored entries are the specification's cell and hidden
  values at (b, q).
-/
import proofs.«159723_j45140106281360_1_alg».proof.Proof.Gen.KernelIdeal.Skeleton
import proofs.«159723_j45140106281360_1_alg».proof.Proof.CellSpec
import proofs.«159723_j45140106281360_1_alg».proof.Proof.LibMatmulPlain
import Idealize.ShloMosaic.Lib.ValueLayout
import Idealize.ShloMosaic.Lib.Pipeline.Value

noncomputable section

namespace Cert.KernelIdeal.BodyCell

open Cert.KernelIdeal Cert.KernelIdeal.Gen Idealize.ShloMosaic Idealize.ShloMosaic.ValueIdx Cert.LstmCell
open scoped BigOperators

/-! ## One gate's pre-activation block -/

section
variable {F : FTy → Type} [FloatOps F]

/-- The block the body forms for one gate from the two row blocks (already in the product's operand format), the
    gate's two weight slabs and its two bias rows. -/
def gateBlock (xb hb : FVec F S256x1024 .bf16) (W R : Vec F S1x1024x1024 .bf16) (a d : Vec F S1x1024 .f32) : FVec F S256x1024 .f32 :=
  addf (addf (addf
      (matmul dot_S256x1024_S1024x1024_S256x1024_1_0_0_1_n_n none xb (shapeCast S1024x1024 W shapeCasts_S1x1024x1024_S1024x1024) (constant S256x1024 .f32 0x00000000#32))
      (matmul dot_S256x1024_S1024x1024_S256x1024_1_0_0_1_n_n none hb (shapeCast S1024x1024 R shapeCasts_S1x1024x1024_S1024x1024) (constant S256x1024 .f32 0x00000000#32)))
    (broadcastTo S256x1024 (shapeCast S1x1024 (shapeCast S1024 a shapeCasts_S1x1024_S1024) shapeCasts_S1024_S1x1024) broadcasts_S1x1024_S256x1024))
    (broadcastTo S256x1024 (shapeCast S1x1024 (shapeCast S1024 d shapeCasts_S1x1024_S1024) shapeCasts_S1024_S1x1024) broadcasts_S1x1024_S256x1024)

/-- The stored cell block, from the loaded values, as the gates' blocks combined. -/
theorem cell_payload_eq (X H C : Vec F S256x1024 .f32) (W0 R0 W1 R1 W2 R2 : Vec F S1x1024x1024 .bf16) (a0 d0 a1 d1 a2 d2 : Vec F S1x1024 .f32) :
    k0_pay8 C (k0_pay2 X) (k0_pay3 H) (k0_pay4 X H W0 R0 a0 d0) (k0_pay5 X W1) (k0_pay6 H R1) (k0_pay7 a1) d1 W2 R2 a2 d2
      = addf (mulf (logistic (gateBlock (truncf .bf16 X bitsLt_bf16_f32) (truncf .bf16 H bitsLt_bf16_f32) W2 R2 a2 d2)) C)
          (mulf (logistic (gateBlock (truncf .bf16 X bitsLt_bf16_f32) (truncf .bf16 H bitsLt_bf16_f32) W1 R1 a1 d1))
            (tanh (gateBlock (truncf .bf16 X bitsLt_bf16_f32) (truncf .bf16 H bitsLt_bf16_f32) W0 R0 a0 d0))) := rfl

/-- The stored hidden block, from the cell block and gate 3's loaded values. -/
theorem hidden_payload_eq (cb : FVec F S256x1024 .f32) (X H : Vec F S256x1024 .f32) (W3 R3 : Vec F S1x1024x1024 .bf16) (a3 d3 : Vec F S1x1024 .f32) :
    k0_pay1 cb (k0_pay9 (k0_pay2 X) W3) (k0_pay10 (k0_pay3 H) R3) a3 d3
      = mulf (logistic (gateBlock (truncf .bf16 X bitsLt_bf16_f32) (truncf .bf16 H bitsLt_bf16_f32) W3 R3 a3 d3)) (tanh cb) := rfl

end

/-! ## Read at an entry, over the extended reals -/

/-- A gate's pre-activation at entry (p, q) of the block, from the loaded rows, slabs and bias rows. -/
def blockPre (X H : FVec Ideal S256x1024 .f32) (W R : FVec Ideal S1x1024x1024 .bf16) (a d : FVec Ideal S1x1024 .f32)
    (p : Fin 256) (q : Fin 1024) : EReal :=
  (∑ k : Fin 1024, X (ix2 p k) * W (ix3 (0 : Fin 1) k q)) + (∑ k : Fin 1024, H (ix2 p k) * R (ix3 (0 : Fin 1) k q))
    + a (ix2 (0 : Fin 1) q) + d (ix2 (0 : Fin 1) q)

/-- A bias row with its unit axis dropped and put back, under the broadcast down the block, is read at (0, q). -/
theorem bias_row_apply (a : FVec Ideal S1x1024 .f32) (p : Fin 256) (q : Fin 1024) :
    broadcastTo S256x1024 (shapeCast S1x1024 (shapeCast S1024 a shapeCasts_S1x1024_S1024) shapeCasts_S1024_S1x1024) broadcasts_S1x1024_S256x1024 (ix2 p q)
      = a (ix2 (0 : Fin 1) q) := by
  rw [broadcastTo_1b_ab_apply, shapeCast_a_1a_apply, shapeCast_1a_a_apply]

/-- One product into the zero accumulator, at (p, q): the sum over k of the row entry times the slab entry. -/
theorem product_apply (xb : FVec Ideal S256x1024 .bf16) (W : FVec Ideal S1x1024x1024 .bf16) (p : Fin 256) (q : Fin 1024) :
    matmul dot_S256x1024_S1024x1024_S256x1024_1_0_0_1_n_n none xb (shapeCast S1024x1024 W shapeCasts_S1x1024x1024_S1024x1024) (constant S256x1024 .f32 0x00000000#32) (ix2 p q)
      = ∑ k : Fin 1024, xb (ix2 p k) * W (ix3 (0 : Fin 1) k q) := by
  refine (MatmulPlain.matmul_zero_apply (M := 256) (K := 1024) (N := 1024) none xb
    (shapeCast S1024x1024 W shapeCasts_S1x1024x1024_S1024x1024) p q).trans ?_
  refine Finset.sum_congr rfl fun k _ => ?_
  rw [shapeCast_1ab_ab_apply]

/-- The gate's block at entry (p, q). -/
theorem gateBlock_apply (X H : FVec Ideal S256x1024 .f32) (W R : FVec Ideal S1x1024x1024 .bf16) (a d : FVec Ideal S1x1024 .f32)
    (p : Fin 256) (q : Fin 1024) :
    gateBlock (F := Ideal) (truncf .bf16 X bitsLt_bf16_f32) (truncf .bf16 H bitsLt_bf16_f32) W R a d (ix2 p q) = blockPre X H W R a d p q := by
  unfold gateBlock blockPre
  rw [addf_apply, addf_apply, addf_apply, bias_row_apply, bias_row_apply, product_apply, product_apply]
  rfl

/-! ## Against the specification -/

section
variable (x hp cp : Acts.Idx → EReal) (Wx Rh : Wts.Idx → EReal) (bx bh : Bias.Idx → EReal)

/-- The loaded slabs and bias rows are gate g's, at hidden unit q: the slabs are the weights transposed. -/
def IsGate (g : Fin 4) (W R : FVec Ideal S1x1024x1024 .bf16) (a d : FVec Ideal S1x1024 .f32) (q : Fin 1024) : Prop :=
  (∀ k : Fin 1024, W (ix3 (0 : Fin 1) k q) = Wx (ix3 g q k)) ∧ (∀ k : Fin 1024, R (ix3 (0 : Fin 1) k q) = Rh (ix3 g q k))
    ∧ a (ix2 (0 : Fin 1) q) = bx (ix2 g q) ∧ d (ix2 (0 : Fin 1) q) = bh (ix2 g q)

/-- With rows p of the loaded blocks being rows b of the arrays, a gate's entry is the specification's pre-activation. -/
theorem blockPre_eq_pre (X H : FVec Ideal S256x1024 .f32) (W R : FVec Ideal S1x1024x1024 .bf16) (a d : FVec Ideal S1x1024 .f32)
    (g : Fin 4) (p : Fin 256) (q : Fin 1024) (b : Fin 16384)
    (hX : ∀ k : Fin 1024, X (ix2 p k) = x (ix2 b k)) (hH : ∀ k : Fin 1024, H (ix2 p k) = hp (ix2 b k))
    (hG : IsGate Wx Rh bx bh g W R a d q) :
    blockPre X H W R a d p q = pre x hp Wx Rh bx bh g b q := by
  obtain ⟨hW, hR, ha, hd⟩ := hG
  have s1 : (∑ k : Fin 1024, X (ix2 p k) * W (ix3 (0 : Fin 1) k q)) = ∑ k : Fin 1024, x (ix2 b k) * Wx (ix3 g q k) :=
    Finset.sum_congr rfl fun k _ => by rw [hX k, hW k]
  have s2 : (∑ k : Fin 1024, H (ix2 p k) * R (ix3 (0 : Fin 1) k q)) = ∑ k : Fin 1024, hp (ix2 b k) * Rh (ix3 g q k) :=
    Finset.sum_congr rfl fun k _ => by rw [hH k, hR k]
  unfold blockPre pre
  rw [ha, hd, s1, s2]

/-- The stored cell block's entry (p, q) is the specification's new cell state at (b, q). -/
theorem cell_entry (X H C : FVec Ideal S256x1024 .f32) (W0 R0 W1 R1 W2 R2 : FVec Ideal S1x1024x1024 .bf16) (a0 d0 a1 d1 a2 d2 : FVec Ideal S1x1024 .f32)
    (p : Fin 256) (q : Fin 1024) (b : Fin 16384)
    (hX : ∀ k : Fin 1024, X (ix2 p k) = x (ix2 b k)) (hH : ∀ k : Fin 1024, H (ix2 p k) = hp (ix2 b k)) (hC : C (ix2 p q) = cp (ix2 b q))
    (h0 : IsGate Wx Rh bx bh 0 W0 R0 a0 d0 q) (h1 : IsGate Wx Rh bx bh 1 W1 R1 a1 d1 q) (h2 : IsGate Wx Rh bx bh 2 W2 R2 a2 d2 q) :
    k0_pay8 (F := Ideal) C (k0_pay2 X) (k0_pay3 H) (k0_pay4 X H W0 R0 a0 d0) (k0_pay5 X W1) (k0_pay6 H R1) (k0_pay7 a1) d1 W2 R2 a2 d2 (ix2 p q)
      = cell x hp cp Wx Rh bx bh b q := by
  rw [cell_payload_eq]
  show Ideal.logistic (gateBlock (F := Ideal) _ _ W2 R2 a2 d2 (ix2 p q)) * C (ix2 p q)
      + Ideal.logistic (gateBlock (F := Ideal) _ _ W1 R1 a1 d1 (ix2 p q)) * Ideal.tanh (gateBlock (F := Ideal) _ _ W0 R0 a0 d0 (ix2 p q)) = _
  rw [gateBlock_apply, gateBlock_apply, gateBlock_apply, hC,
    blockPre_eq_pre x hp Wx Rh bx bh X H W2 R2 a2 d2 2 p q b hX hH h2,
    blockPre_eq_pre x hp Wx Rh bx bh X H W1 R1 a1 d1 1 p q b hX hH h1,
    blockPre_eq_pre x hp Wx Rh bx bh X H W0 R0 a0 d0 0 p q b hX hH h0]
  rfl

/-- The stored hidden block's entry (p, q) is the specification's new hidden state at (b, q). -/
theorem hidden_entry (X H C : FVec Ideal S256x1024 .f32) (W0 R0 W1 R1 W2 R2 W3 R3 : FVec Ideal S1x1024x1024 .bf16)
    (a0 d0 a1 d1 a2 d2 a3 d3 : FVec Ideal S1x1024 .f32)
    (p : Fin 256) (q : Fin 1024) (b : Fin 16384)
    (hX : ∀ k : Fin 1024, X (ix2 p k) = x (ix2 b k)) (hH : ∀ k : Fin 1024, H (ix2 p k) = hp (ix2 b k)) (hC : C (ix2 p q) = cp (ix2 b q))
    (h0 : IsGate Wx Rh bx bh 0 W0 R0 a0 d0 q) (h1 : IsGate Wx Rh bx bh 1 W1 R1 a1 d1 q) (h2 : IsGate Wx Rh bx bh 2 W2 R2 a2 d2 q)
    (h3 : IsGate Wx Rh bx bh 3 W3 R3 a3 d3 q) :
    k0_pay1 (F := Ideal) (k0_pay8 C (k0_pay2 X) (k0_pay3 H) (k0_pay4 X H W0 R0 a0 d0) (k0_pay5 X W1) (k0_pay6 H R1) (k0_pay7 a1) d1 W2 R2 a2 d2)
        (k0_pay9 (k0_pay2 X) W3) (k0_pay10 (k0_pay3 H) R3) a3 d3 (ix2 p q)
      = hidden x hp cp Wx Rh bx bh b q := by
  rw [hidden_payload_eq]
  show Ideal.logistic (gateBlock (F := Ideal) _ _ W3 R3 a3 d3 (ix2 p q))
      * Ideal.tanh (k0_pay8 (F := Ideal) C (k0_pay2 X) (k0_pay3 H) (k0_pay4 X H W0 R0 a0 d0) (k0_pay5 X W1) (k0_pay6 H R1) (k0_pay7 a1) d1 W2 R2 a2 d2 (ix2 p q)) = _
  rw [gateBlock_apply, cell_entry x hp cp Wx Rh bx bh X H C W0 R0 W1 R1 W2 R2 a0 d0 a1 d1 a2 d2 p q b hX hH hC h0 h1 h2,
    blockPre_eq_pre x hp Wx Rh bx bh X H W3 R3 a3 d3 3 p q b hX hH h3]
  rfl

end

end Cert.KernelIdeal.BodyCell

end
-- ==== Proof.BlockReads.lean ====
/-
  Each input window's block at a grid point, read as entries of the arrays the program was given.

  The grid has 64 points; point t stages rows 256·t … 256·t + 255 of x, h and c (block index (t, 0)), and the whole
  of both weight stacks and both biases (block index all zeros). The two weight operands are not arguments: before the
  call the program transposes each [gate, hidden, contracted] stack to [gate, contracted, hidden] and changes its float
  format, which over the extended reals is the identity. So an entry (g, k, j) of a weight operand is entry (g, j, k) of
  the weight argument. Inside the body, gate g's slab is the stack read through the rectangle at offset (g, 0, 0) of
  extent [1, 1024, 1024], and gate g's bias row the bias read through the rectangle at (g, 0) of extent [1, 1024].
-/
import proofs.«159723_j45140106281360_1_alg».proof.Proof.Gen.KernelIdeal.Frame
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.BlockReads

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The printed index maps over the 64 grid points: the three row windows and the two outputs move with the point along
    the batch axis; the weight and bias windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The first weight operand as the region finds it: the argument transposed, its float format changed. -/
theorem wx_operand (c : Dev nD) :
    @Eq (FVec Ideal S4x1024x1024 .bf16) (V m c main_v1)
      (truncf (F := Ideal) .bf16 (transpose S4x1024x1024 [0, 2, 1] (m ((c : Thread nD τ).loc main_arg3) : FVec Ideal S4x1024x1024 .f32)
        transposes_S4x1024x1024_S4x1024x1024_0_2_1) bitsLt_bf16_f32) := by
  dsimp only [V, hostOps0]
  after_results

/-- Its entry (g, k, j) is the argument's entry (g, j, k). -/
theorem wx_operand_apply (c : Dev nD) (g : Fin 4) (k j : Fin 1024) :
    (V m c main_v1 : S4x1024x1024.Idx → EReal) (ix3 g k j) = (m ((c : Thread nD τ).loc main_arg3) : S4x1024x1024.Idx → EReal) (ix3 g j k) := by
  rw [wx_operand]
  show transpose S4x1024x1024 [0, 2, 1] (m ((c : Thread nD τ).loc main_arg3) : FVec Ideal S4x1024x1024 .f32) transposes_S4x1024x1024_S4x1024x1024_0_2_1 (ix3 g k j) = _
  rw [transpose_ix3_021_apply]

/-- Row p of the x window's block at point t is row 256·t + p of the argument. -/
theorem x_rows (c : Dev nD) (t : Fin cfg0.N) (p : Fin 256) (k : Fin 1024) (b : Fin 16384) (hb : b.val = t.val * 256 + p.val) :
    (iblk m c 0 t : FVec Ideal S256x1024 .f32) (ix2 p k) = (m ((c : Thread nD τ).loc main_arg0) : S16384x1024.Idx → EReal) (ix2 b k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = b.val; rw [e0, hb]; omega
  | ⟨1, _⟩ => show win0_0.index t (1 : Fin 2) * 1024 + 1 * k.val = k.val; rw [e1]; omega

/-- The x-weight window's block is the whole operand. -/
theorem wx_block_apply (c : Dev nD) (t : Fin cfg0.N) (g : Fin 4) (k j : Fin 1024) :
    (iblk m c 3 t : FVec Ideal S4x1024x1024 .bf16) (ix3 g k j) = (m ((c : Thread nD τ).loc main_arg3) : S4x1024x1024.Idx → EReal) (ix3 g j k) := by
  obtain ⟨-, -, -, -, -, -, e0, e1, e2, -⟩ := idx_facts t
  rw [← wx_operand_apply m c g k j]
  unfold iblk
  rw [View.read_apply]
  show V m c main_v1 _ = _
  congr 1
  funext a
  apply Fin.ext
  match a with
  | ⟨0, _⟩ => show win0_3.index t (0 : Fin 3) * 4 + 1 * g.val = g.val; rw [e0]; omega
  | ⟨1, _⟩ => show win0_3.index t (1 : Fin 3) * 1024 + 1 * k.val = k.val; rw [e1]; omega
  | ⟨2, _⟩ => show win0_3.index t (2 : Fin 3) * 1024 + 1 * j.val = j.val; rw [e2]; omega

/-- Gate 1's slab of a stack, read at (0, k, j), is the stack at (1, k, j). -/
theorem slab1_apply (Y : FVec Ideal S4x1024x1024 .bf16) (k j : Fin 1024) :
    View.ld (Val := Elt Ideal) (e' := .bf16) Y r0_3 (ix3 (0 : Fin 1) k j) = Y (ix3 (1 : Fin 4) k j) :=
  congrArg Y (funext fun a => Fin.ext (by
    match a with
    | ⟨0, _⟩ => rfl
    | ⟨1, _⟩ => show 0 + 1 * k.val = k.val; omega
    | ⟨2, _⟩ => show 0 + 1 * j.val = j.val; omega))

/-- The second weight operand as the region finds it: likewise. -/
theorem rh_operand (c : Dev nD) :
    @Eq (FVec Ideal S4x1024x1024 .bf16) (V m c main_v3)
      (truncf (F := Ideal) .bf16 (transpose S4x1024x1024 [0, 2, 1] (m ((c : Thread nD τ).loc main_arg5) : FVec Ideal S4x1024x1024 .f32)
        transposes_S4x1024x1024_S4x1024x1024_0_2_1) bitsLt_bf16_f32) := by
  dsimp only [V, hostOps0]
  after_results

theorem rh_operand_apply (c : Dev nD) (g : Fin 4) (k j : Fin 1024) :
    (V m c main_v3 : S4x1024x1024.Idx → EReal) (ix3 g k j) = (m ((c : Thread nD τ).loc main_arg5) : S4x1024x1024.Idx → EReal) (ix3 g j k) := by
  rw [rh_operand]
  show transpose S4x1024x1024 [0, 2, 1] (m ((c : Thread nD τ).loc main_arg5) : FVec Ideal S4x1024x1024 .f32) transposes_S4x1024x1024_S4x1024x1024_0_2_1 (ix3 g k j) = _
  rw [transpose_ix3_021_apply]

/-- Row p of the h window's block at point t is row 256·t + p of the argument. -/
theorem h_rows (c : Dev nD) (t : Fin cfg0.N) (p : Fin 256) (k : Fin 1024) (b : Fin 16384) (hb : b.val = t.val * 256 + p.val) :
    (iblk m c 1 t : FVec Ideal S256x1024 .f32) (ix2 p k) = (m ((c : Thread nD τ).loc main_arg1) : S16384x1024.Idx → EReal) (ix2 b k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * p.val = b.val; rw [e0, hb]; omega
  | ⟨1, _⟩ => show win0_1.index t (1 : Fin 2) * 1024 + 1 * k.val = k.val; rw [e1]; omega

/-- Row p of the c window's block at point t is row 256·t + p of the argument. -/
theorem c_rows (c : Dev nD) (t : Fin cfg0.N) (p : Fin 256) (k : Fin 1024) (b : Fin 16384) (hb : b.val = t.val * 256 + p.val) :
    (iblk m c 2 t : FVec Ideal S256x1024 .f32) (ix2 p k) = (m ((c : Thread nD τ).loc main_arg2) : S16384x1024.Idx → EReal) (ix2 b k) := by
  obtain ⟨-, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * p.val = b.val; rw [e0, hb]; omega
  | ⟨1, _⟩ => show win0_2.index t (1 : Fin 2) * 1024 + 1 * k.val = k.val; rw [e1]; omega

/-- The h-weight window's block is the whole operand. -/
theorem rh_block_apply (c : Dev nD) (t : Fin cfg0.N) (g : Fin 4) (k j : Fin 1024) :
    (iblk m c 5 t : FVec Ideal S4x1024x1024 .bf16) (ix3 g k j) = (m ((c : Thread nD τ).loc main_arg5) : S4x1024x1024.Idx → EReal) (ix3 g j k) := by
  obtain ⟨-, -, -, -, -, -, -, -, -, -, -, e0, e1, e2, -⟩ := idx_facts t
  rw [← rh_operand_apply m c g k j]
  unfold iblk
  rw [View.read_apply]
  show V m c main_v3 _ = _
  congr 1
  funext a
  apply Fin.ext
  match a with
  | ⟨0, _⟩ => show win0_5.index t (0 : Fin 3) * 4 + 1 * g.val = g.val; rw [e0]; omega
  | ⟨1, _⟩ => show win0_5.index t (1 : Fin 3) * 1024 + 1 * k.val = k.val; rw [e1]; omega
  | ⟨2, _⟩ => show win0_5.index t (2 : Fin 3) * 1024 + 1 * j.val = j.val; rw [e2]; omega

/-- The x-bias window's block is the whole bias. -/
theorem bx_block_apply (c : Dev nD) (t : Fin cfg0.N) (g : Fin 4) (j : Fin 1024) :
    (iblk m c 4 t : FVec Ideal S4x1024 .f32) (ix2 g j) = (m ((c : Thread nD τ).loc main_arg4) : S4x1024.Idx → EReal) (ix2 g j) := by
  obtain ⟨-, -, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_4.index t (0 : Fin 2) * 4 + 1 * g.val = g.val; rw [e0]; omega
  | ⟨1, _⟩ => show win0_4.index t (1 : Fin 2) * 1024 + 1 * j.val = j.val; rw [e1]; omega

/-- The h-bias window's block is the whole bias. -/
theorem bh_block_apply (c : Dev nD) (t : Fin cfg0.N) (g : Fin 4) (j : Fin 1024) :
    (iblk m c 6 t : FVec Ideal S4x1024 .f32) (ix2 g j) = (m ((c : Thread nD τ).loc main_arg6) : S4x1024.Idx → EReal) (ix2 g j) := by
  obtain ⟨-, -, -, -, -, -, -, -, -, -, -, -, -, -, e0, e1, -⟩ := idx_facts t
  unfold iblk
  rw [View.read_apply]
  show V m c main_arg6 _ = _
  rw [V_main_arg6]
  congr 1
  funext a
  apply Fin.ext
  match a with
  | ⟨0, _⟩ => show win0_6.index t (0 : Fin 2) * 4 + 1 * g.val = g.val; rw [e0]; omega
  | ⟨1, _⟩ => show win0_6.index t (1 : Fin 2) * 1024 + 1 * j.val = j.val; rw [e1]; omega

/-! ## The body's rectangles: gate g's slab of a stack and gate g's row of a bias -/

theorem slab0_apply (Y : FVec Ideal S4x1024x1024 .bf16) (k j : Fin 1024) :
    View.ld (Val := Elt Ideal) (e' := .bf16) Y r0_1 (ix3 (0 : Fin 1) k j) = Y (ix3 (0 : Fin 4) k j) :=
  congrArg Y (funext fun a => Fin.ext (by
    match a with
    | ⟨0, _⟩ => rfl
    | ⟨1, _⟩ => show 0 + 1 * k.val = k.val; omega
    | ⟨2, _⟩ => show 0 + 1 * j.val = j.val; omega))

theorem slab2_apply (Y : FVec Ideal S4x1024x1024 .bf16) (k j : Fin 1024) :
    View.ld (Val := Elt Ideal) (e' := .bf16) Y r0_5 (ix3 (0 : Fin 1) k j) = Y (ix3 (2 : Fin 4) k j) :=
  congrArg Y (funext fun a => Fin.ext (by
    match a with
    | ⟨0, _⟩ => rfl
    | ⟨1, _⟩ => show 0 + 1 * k.val = k.val; omega
    | ⟨2, _⟩ => show 0 + 1 * j.val = j.val; omega))

theorem slab3_apply (Y : FVec Ideal S4x1024x1024 .bf16) (k j : Fin 1024) :
    View.ld (Val := Elt Ideal) (e' := .bf16) Y r0_7 (ix3 (0 : Fin 1) k j) = Y (ix3 (3 : Fin 4) k j) :=
  congrArg Y (funext fun a => Fin.ext (by
    match a with
    | ⟨0, _⟩ => rfl
    | ⟨1, _⟩ => show 0 + 1 * k.val = k.val; omega
    | ⟨2, _⟩ => show 0 + 1 * j.val = j.val; omega))

theorem row0_apply (Y : FVec Ideal S4x1024 .f32) (j : Fin 1024) :
    View.ld (Val := Elt Ideal) (e' := .f32) Y r0_2 (ix2 (0 : Fin 1) j) = Y (ix2 (0 : Fin 4) j) :=
  congrArg Y (funext fun a => Fin.ext (by
    match a with
    | ⟨0, _⟩ => rfl
    | ⟨1, _⟩ => show 0 + 1 * j.val = j.val; omega))

theorem row1_apply (Y : FVec Ideal S4x1024 .f32) (j : Fin 1024) :
    View.ld (Val := Elt Ideal) (e' := .f32) Y r0_4 (ix2 (0 : Fin 1) j) = Y (ix2 (1 : Fin 4) j) :=
  congrArg Y (funext fun a => Fin.ext (by
    match a with
    | ⟨0, _⟩ => rfl
    | ⟨1, _⟩ => show 0 + 1 * j.val = j.val; omega))

theorem row2_apply (Y : FVec Ideal S4x1024 .f32) (j : Fin 1024) :
    View.ld (Val := Elt Ideal) (e' := .f32) Y r0_6 (ix2 (0 : Fin 1) j) = Y (ix2 (2 : Fin 4) j) :=
  congrArg Y (funext fun a => Fin.ext (by
    match a with
    | ⟨0, _⟩ => rfl
    | ⟨1, _⟩ => show 0 + 1 * j.val = j.val; omega))

theorem row3_apply (Y : FVec Ideal S4x1024 .f32) (j : Fin 1024) :
    View.ld (Val := Elt Ideal) (e' := .f32) Y r0_8 (ix2 (0 : Fin 1) j) = Y (ix2 (3 : Fin 4) j) :=
  congrArg Y (funext fun a => Fin.ext (by
    match a with
    | ⟨0, _⟩ => rfl
    | ⟨1, _⟩ => show 0 + 1 * j.val = j.val; omega))

end Cert.KernelIdeal.BlockReads

end
-- ==== Proof.KernelArrays.lean ====
/-
  The kernel's two result arrays after the run are the specification's hidden and cell arrays.

  Point t of the 64-point grid writes back block (t, 0) of each output: rows 256·t … 256·t + 255. What it writes is the
  body's stored block over the point's input blocks; at entry (p, q) that is the specification's value at
  (256·t + p, q), because rows p of the staged x, h and c blocks are rows 256·t + p of the arrays and each gate's slab
  and bias row are that gate's weights (transposed back) and biases. So each write-back is block t of the
  specification's array, the 64 blocks cover the [16384, 1024] array (row r lies in block r / 256), and the array ends
  holding the specification's.
-/
import proofs.«159723_j45140106281360_1_alg».proof.Proof.Gen.KernelIdeal.Value
import proofs.«159723_j45140106281360_1_alg».proof.Proof.BodyCell
import proofs.«159723_j45140106281360_1_alg».proof.Proof.BlockReads

set_option maxRecDepth 16384

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.ValueIdx Cert.LstmCell Cert.KernelIdeal.BodyCell Cert.KernelIdeal.BlockReads
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The specification's arrays of the arguments as launched on core c. -/
abbrev cellOf (c : Dev nD) : S16384x1024.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6))
abbrev hiddenOf (c : Dev nD) : S16384x1024.Idx → EReal :=
  hiddenArr (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6))

/-- Gate 0's slabs and bias rows, as the body loads them at point t, are gate 0's weights and biases. -/
theorem gate0_loaded (c : Dev nD) (t : Fin cfg0.N) (q : Fin 1024) :
    IsGate (m ((c : Thread nD τ).loc main_arg3)) (m ((c : Thread nD τ).loc main_arg5)) (m ((c : Thread nD τ).loc main_arg4)) (m ((c : Thread nD τ).loc main_arg6)) 0
      (View.ld (Val := Elt Ideal) (e' := .bf16) (iblk m c 3 t) r0_1) (View.ld (Val := Elt Ideal) (e' := .bf16) (iblk m c 5 t) r0_1)
      (View.ld (Val := Elt Ideal) (e' := .f32) (iblk m c 4 t) r0_2) (View.ld (Val := Elt Ideal) (e' := .f32) (iblk m c 6 t) r0_2) q :=
  ⟨fun k => (slab0_apply (iblk m c 3 t) k q).trans (wx_block_apply m c t 0 k q),
   fun k => (slab0_apply (iblk m c 5 t) k q).trans (rh_block_apply m c t 0 k q),
   (row0_apply (iblk m c 4 t) q).trans (bx_block_apply m c t 0 q),
   (row0_apply (iblk m c 6 t) q).trans (bh_block_apply m c t 0 q)⟩

theorem gate1_loaded (c : Dev nD) (t : Fin cfg0.N) (q : Fin 1024) :
    IsGate (m ((c : Thread nD τ).loc main_arg3)) (m ((c : Thread nD τ).loc main_arg5)) (m ((c : Thread nD τ).loc main_arg4)) (m ((c : Thread nD τ).loc main_arg6)) 1
      (View.ld (Val := Elt Ideal) (e' := .bf16) (iblk m c 3 t) r0_3) (View.ld (Val := Elt Ideal) (e' := .bf16) (iblk m c 5 t) r0_3)
      (View.ld (Val := Elt Ideal) (e' := .f32) (iblk m c 4 t) r0_4) (View.ld (Val := Elt Ideal) (e' := .f32) (iblk m c 6 t) r0_4) q :=
  ⟨fun k => (slab1_apply (iblk m c 3 t) k q).trans (wx_block_apply m c t 1 k q),
   fun k => (slab1_apply (iblk m c 5 t) k q).trans (rh_block_apply m c t 1 k q),
   (row1_apply (iblk m c 4 t) q).trans (bx_block_apply m c t 1 q),
   (row1_apply (iblk m c 6 t) q).trans (bh_block_apply m c t 1 q)⟩

theorem gate2_loaded (c : Dev nD) (t : Fin cfg0.N) (q : Fin 1024) :
    IsGate (m ((c : Thread nD τ).loc main_arg3)) (m ((c : Thread nD τ).loc main_arg5)) (m ((c : Thread nD τ).loc main_arg4)) (m ((c : Thread nD τ).loc main_arg6)) 2
      (View.ld (Val := Elt Ideal) (e' := .bf16) (iblk m c 3 t) r0_5) (View.ld (Val := Elt Ideal) (e' := .bf16) (iblk m c 5 t) r0_5)
      (View.ld (Val := Elt Ideal) (e' := .f32) (iblk m c 4 t) r0_6) (View.ld (Val := Elt Ideal) (e' := .f32) (iblk m c 6 t) r0_6) q :=
  ⟨fun k => (slab2_apply (iblk m c 3 t) k q).trans (wx_block_apply m c t 2 k q),
   fun k => (slab2_apply (iblk m c 5 t) k q).trans (rh_block_apply m c t 2 k q),
   (row2_apply (iblk m c 4 t) q).trans (bx_block_apply m c t 2 q),
   (row2_apply (iblk m c 6 t) q).trans (bh_block_apply m c t 2 q)⟩

theorem gate3_loaded (c : Dev nD) (t : Fin cfg0.N) (q : Fin 1024) :
    IsGate (m ((c : Thread nD τ).loc main_arg3)) (m ((c : Thread nD τ).loc main_arg5)) (m ((c : Thread nD τ).loc main_arg4)) (m ((c : Thread nD τ).loc main_arg6)) 3
      (View.ld (Val := Elt Ideal) (e' := .bf16) (iblk m c 3 t) r0_7) (View.ld (Val := Elt Ideal) (e' := .bf16) (iblk m c 5 t) r0_7)
      (View.ld (Val := Elt Ideal) (e' := .f32) (iblk m c 4 t) r0_8) (View.ld (Val := Elt Ideal) (e' := .f32) (iblk m c 6 t) r0_8) q :=
  ⟨fun k => (slab3_apply (iblk m c 3 t) k q).trans (wx_block_apply m c t 3 k q),
   fun k => (slab3_apply (iblk m c 5 t) k q).trans (rh_block_apply m c t 3 k q),
   (row3_apply (iblk m c 4 t) q).trans (bx_block_apply m c t 3 q),
   (row3_apply (iblk m c 6 t) q).trans (bh_block_apply m c t 3 q)⟩

/-- Entry (p, q) of an output block at point t sits at row 256·t + p of the array. -/
theorem row_of_point (t : Fin cfg0.N) (p : Fin 256) : t.val * 256 + p.val < 16384 := by
  have ht : t.val < 64 := lt_of_lt_of_eq t.isLt (show cfg0.N = 64 from N_0)
  have hp := p.isLt
  omega

/-- WHAT POINT t WRITES BACK to the cell output is block t of the specification's cell array. -/
theorem flushed8_eq (c : Dev nD) (t : Fin cfg0.N) :
    (dats m 0 c).flushed 8 t = ((cfg0.win 8).blk t).view.read (Elt Ideal) (cellOf m c) := by
  rw [flushed8]
  unfold out0_8
  rw [View.canon_unit_zero hz2]
  simp only [View.ld_unit_zero (S := S256x1024) hz2]
  funext y
  obtain ⟨p, q, rfl⟩ : ∃ (p : Fin 256) (q : Fin 1024), y = ix2 p q := ⟨y 0, y 1, eq_ix2 y⟩
  obtain ⟨-, -, -, -, -, -, -, -, -, -, -, -, -, -, -, -, -, -, e0, e1⟩ := idx_facts t
  have hemb : ((cfg0.win 8).blk t).view.emb (ix2 p q) = ix2 (⟨t.val * 256 + p.val, row_of_point t p⟩ : Fin 16384) q := by
    funext a
    apply Fin.ext
    match a with
    | ⟨0, _⟩ => show win0_8.index t (0 : Fin 2) * 256 + 1 * p.val = t.val * 256 + p.val; rw [e0]; omega
    | ⟨1, _⟩ => show win0_8.index t (1 : Fin 2) * 1024 + 1 * q.val = q.val; rw [e1]; omega
  show k0_pay8 (F := Ideal) _ _ _ _ _ _ _ _ _ _ _ _ (ix2 p q) = cellOf m c (((cfg0.win 8).blk t).view.emb (ix2 p q))
  rw [hemb]
  exact cell_entry (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6))
    (iblk m c 0 t) (iblk m c 1 t) (iblk m c 2 t)
    (View.ld (Val := Elt Ideal) (e' := .bf16) (iblk m c 3 t) r0_1) (View.ld (Val := Elt Ideal) (e' := .bf16) (iblk m c 5 t) r0_1)
    (View.ld (Val := Elt Ideal) (e' := .bf16) (iblk m c 3 t) r0_3) (View.ld (Val := Elt Ideal) (e' := .bf16) (iblk m c 5 t) r0_3)
    (View.ld (Val := Elt Ideal) (e' := .bf16) (iblk m c 3 t) r0_5) (View.ld (Val := Elt Ideal) (e' := .bf16) (iblk m c 5 t) r0_5)
    (View.ld (Val := Elt Ideal) (e' := .f32) (iblk m c 4 t) r0_2) (View.ld (Val := Elt Ideal) (e' := .f32) (iblk m c 6 t) r0_2)
    (View.ld (Val := Elt Ideal) (e' := .f32) (iblk m c 4 t) r0_4) (View.ld (Val := Elt Ideal) (e' := .f32) (iblk m c 6 t) r0_4)
    (View.ld (Val := Elt Ideal) (e' := .f32) (iblk m c 4 t) r0_6) (View.ld (Val := Elt Ideal) (e' := .f32) (iblk m c 6 t) r0_6)
    p q ⟨t.val * 256 + p.val, row_of_point t p⟩
    (fun k => x_rows m c t p k _ rfl) (fun k => h_rows m c t p k _ rfl) (c_rows m c t p q _ rfl)
    (gate0_loaded m c t q) (gate1_loaded m c t q) (gate2_loaded m c t q)

/-- WHAT POINT t WRITES BACK to the hidden output is block t of the specification's hidden array. -/
theorem flushed7_eq (c : Dev nD) (t : Fin cfg0.N) :
    (dats m 0 c).flushed 7 t = ((cfg0.win 7).blk t).view.read (Elt Ideal) (hiddenOf m c) := by
  rw [flushed7]
  unfold out0_7
  rw [View.canon_unit_zero hz2]
  simp only [View.ld_unit_zero (S := S256x1024) hz2]
  funext y
  obtain ⟨p, q, rfl⟩ : ∃ (p : Fin 256) (q : Fin 1024), y = ix2 p q := ⟨y 0, y 1, eq_ix2 y⟩
  obtain ⟨-, -, -, -, -, -, -, -, -, -, -, -, -, -, -, -, e0, e1, -, -⟩ := idx_facts t
  have hemb : ((cfg0.win 7).blk t).view.emb (ix2 p q) = ix2 (⟨t.val * 256 + p.val, row_of_point t p⟩ : Fin 16384) q := by
    funext a
    apply Fin.ext
    match a with
    | ⟨0, _⟩ => show win0_7.index t (0 : Fin 2) * 256 + 1 * p.val = t.val * 256 + p.val; rw [e0]; omega
    | ⟨1, _⟩ => show win0_7.index t (1 : Fin 2) * 1024 + 1 * q.val = q.val; rw [e1]; omega
  show k0_pay1 (F := Ideal) _ _ _ _ _ (ix2 p q) = hiddenOf m c (((cfg0.win 7).blk t).view.emb (ix2 p q))
  rw [hemb]
  exact hidden_entry (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6))
    (iblk m c 0 t) (iblk m c 1 t) (iblk m c 2 t)
    (View.ld (Val := Elt Ideal) (e' := .bf16) (iblk m c 3 t) r0_1) (View.ld (Val := Elt Ideal) (e' := .bf16) (iblk m c 5 t) r0_1)
    (View.ld (Val := Elt Ideal) (e' := .bf16) (iblk m c 3 t) r0_3) (View.ld (Val := Elt Ideal) (e' := .bf16) (iblk m c 5 t) r0_3)
    (View.ld (Val := Elt Ideal) (e' := .bf16) (iblk m c 3 t) r0_5) (View.ld (Val := Elt Ideal) (e' := .bf16) (iblk m c 5 t) r0_5)
    (View.ld (Val := Elt Ideal) (e' := .bf16) (iblk m c 3 t) r0_7) (View.ld (Val := Elt Ideal) (e' := .bf16) (iblk m c 5 t) r0_7)
    (View.ld (Val := Elt Ideal) (e' := .f32) (iblk m c 4 t) r0_2) (View.ld (Val := Elt Ideal) (e' := .f32) (iblk m c 6 t) r0_2)
    (View.ld (Val := Elt Ideal) (e' := .f32) (iblk m c 4 t) r0_4) (View.ld (Val := Elt Ideal) (e' := .f32) (iblk m c 6 t) r0_4)
    (View.ld (Val := Elt Ideal) (e' := .f32) (iblk m c 4 t) r0_6) (View.ld (Val := Elt Ideal) (e' := .f32) (iblk m c 6 t) r0_6)
    (View.ld (Val := Elt Ideal) (e' := .f32) (iblk m c 4 t) r0_8) (View.ld (Val := Elt Ideal) (e' := .f32) (iblk m c 6 t) r0_8)
    p q ⟨t.val * 256 + p.val, row_of_point t p⟩
    (fun k => x_rows m c t p k _ rfl) (fun k => h_rows m c t p k _ rfl) (c_rows m c t p q _ rfl)
    (gate0_loaded m c t q) (gate1_loaded m c t q) (gate2_loaded m c t q) (gate3_loaded m c t q)

/-! ## The blocks cover the arrays -/

/-- An index is in point t's block of the hidden output iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v4_0).slice (win0_7.rect t)).set ↔ _
  rw [View.set_slice_whole, Rect.mem_set_unit]
  exact Iff.rfl

/-- The same for the cell output. -/
theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_1).slice (win0_8.rect t)).set ↔ _
  rw [View.set_slice_whole, Rect.mem_set_unit]
  exact Iff.rfl

/-- The grid point whose blocks hold row r: r / 256. -/
theorem point_of_row (i : S16384x1024.Idx) : ∃ t : Fin cfg0.N, t.val = (i 0).val / 256 := by
  have hi0 : (i 0).val < 16384 := (i 0).isLt
  exact ⟨⟨(i 0).val / 256, lt_of_lt_of_eq (show (i 0).val / 256 < 64 by omega) (show 64 = cfg0.N from N_0.symm)⟩, rfl⟩

/-- Every index of the hidden output is in some point's block. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ := point_of_row i
  obtain ⟨-, -, -, -, -, -, -, -, -, -, -, -, -, -, -, -, e0, e1, -, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1024 ≤ (i 1).val ∧ (i 1).val < win0_7.index t (1 : Fin 2) * 1024 + 1024; rw [e1]; omega

/-- Every index of the cell output is in some point's block. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ := point_of_row i
  obtain ⟨-, -, -, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; rw [e0, ht]; omega
  | ⟨1, _⟩ => show win0_8.index t (1 : Fin 2) * 1024 ≤ (i 1).val ∧ (i 1).val < win0_8.index t (1 : Fin 2) * 1024 + 1024; rw [e1]; omega

/-! ## The arrays after the run -/

/-- The hidden output ends holding the specification's hidden array. -/
theorem final7 (c : Dev nD) : (dats m 0 c).arrAt 7 cfg0.N = hiddenOf m c :=
  (dats m 0 c).arrAt_eq_of_cover 7 (hiddenOf m c) (fun t _ => flushed7_eq m c t) cover7

/-- The cell output ends holding the specification's cell array. -/
theorem final8 (c : Dev nD) : (dats m 0 c).arrAt 8 cfg0.N = cellOf m c :=
  (dats m 0 c).arrAt_eq_of_cover 8 (cellOf m c) (fun t _ => flushed8_eq m c t) cover8

/-- The kernel's run, read: both results at the specification's arrays, the arguments unchanged. -/
theorem run : θ_run defs (onTc (τ := τ) (main (F := Ideal))) ⟨m, fun _ => 0, ρ⟩ fun r => ∀ c : Dev nD,
      r.2.mem ((c : Thread nD τ).loc main_v4_0) = hiddenOf m c
      ∧ r.2.mem ((c : Thread nD τ).loc main_v4_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (run_blocks m ρ)

end Cert.KernelIdeal.Arrays

end
-- ==== Proof.RefCell.lean ====
/-
  The reference computes the LSTM cell.

  Its program forms, for all four gates at once, (Wx·xᵀ)ᵀ + bx and (Rh·hᵀ)ᵀ + bh as [gate, batch, hidden] arrays,
  adds them, cuts out each gate's slab, and applies tanh to the candidate's and 1 / (1 + e^(−v)) to the three gates'.
  Read at one entry: each contraction is a sum over k of weight[g,j,k]·activation[b,k] (the factors the other way
  round from the specification's, equal by commutativity), the two sums-plus-bias are the specification's four terms
  regrouped, the slab g of the sum read at (b, j) is the sum read at (g, b, j), and the quotient is the logistic
  function by its definition. The constant 1 is the word 0x3F800000.
-/
import proofs.«159723_j45140106281360_1_alg».proof.Proof.Gen.ReferenceIdeal.Read
import proofs.«159723_j45140106281360_1_alg».proof.Proof.CellSpec
import Idealize.ShloMosaic.Lib.IdealHost

noncomputable section

namespace Cert.ReferenceIdeal.RefCell

open Cert.ReferenceIdeal Cert.ReferenceIdeal.Read Idealize.ShloMosaic Idealize.ShloMosaic.ValueIdx Cert.LstmCell
open scoped BigOperators

variable (x0 x1 x2 : FVec Ideal S16384x1024 .f32) (x3 x5 : FVec Ideal S4x1024x1024 .f32) (x4 x6 : FVec Ideal S4x1024 .f32)

/-- The four gates' summed pre-activations, read at (g, b, j). -/
theorem gates_apply (g : Fin 4) (b : Fin 16384) (j : Fin 1024) :
    val_main_v10 (F := Ideal) x0 x1 x3 x4 x5 x6 (ix3 g b j) = pre x0 x1 x3 x5 x4 x6 g b j := by
  have e1 : ∀ k : Fin 1024, lidx_main_v0 (idx_main_v1 (ix3 g b j)) k = ix3 g j k := fun k => funext fun a => Fin.ext (by
    match a with | ⟨0, _⟩ => rfl | ⟨1, _⟩ => rfl | ⟨2, _⟩ => rfl)
  have e2 : ∀ k : Fin 1024, ridx_main_v0 (idx_main_v1 (ix3 g b j)) k = ix2 b k := fun k => funext fun a => Fin.ext (by
    match a with | ⟨0, _⟩ => rfl | ⟨1, _⟩ => rfl)
  have e3 : idx_main_v2 (idx_main_v3 (ix3 g b j)) = ix2 g j := funext fun a => Fin.ext (by
    match a with | ⟨0, _⟩ => rfl | ⟨1, _⟩ => rfl)
  have e4 : ∀ k : Fin 1024, lidx_main_v5 (idx_main_v6 (ix3 g b j)) k = ix3 g j k := fun k => funext fun a => Fin.ext (by
    match a with | ⟨0, _⟩ => rfl | ⟨1, _⟩ => rfl | ⟨2, _⟩ => rfl)
  have e5 : ∀ k : Fin 1024, ridx_main_v5 (idx_main_v6 (ix3 g b j)) k = ix2 b k := fun k => funext fun a => Fin.ext (by
    match a with | ⟨0, _⟩ => rfl | ⟨1, _⟩ => rfl)
  have e6 : idx_main_v7 (idx_main_v8 (ix3 g b j)) = ix2 g j := funext fun a => Fin.ext (by
    match a with | ⟨0, _⟩ => rfl | ⟨1, _⟩ => rfl)
  have s1 : (∑ k : Fin 1024, x3 (ix3 g j k) * x0 (ix2 b k)) = ∑ k : Fin 1024, x0 (ix2 b k) * x3 (ix3 g j k) :=
    sum_mul_swap (fun k => x3 (ix3 g j k)) (fun k => x0 (ix2 b k))
  have s2 : (∑ k : Fin 1024, x5 (ix3 g j k) * x1 (ix2 b k)) = ∑ k : Fin 1024, x1 (ix2 b k) * x5 (ix3 g j k) :=
    sum_mul_swap (fun k => x5 (ix3 g j k)) (fun k => x1 (ix2 b k))
  rw [val_main_v10_apply, val_main_v4_apply, val_main_v9_apply, val_main_v1_apply, val_main_v3_apply, val_main_v2_apply,
    val_main_v6_apply, val_main_v8_apply, val_main_v7_apply, val_main_v0_apply, val_main_v5_apply]
  simp only [e1, e2, e3, e4, e5, e6, Ideal.addf_def]
  unfold pre
  rw [pairs_regroup, s1, s2]

/-- Each gate's slab of that sum, reshaped to [batch, hidden] and read at (b, j), is the sum read at (g, b, j). -/
theorem gate0_apply (b : Fin 16384) (j : Fin 1024) :
    val_main_v12 (F := Ideal) x0 x1 x3 x4 x5 x6 (ix2 b j) = pre x0 x1 x3 x5 x4 x6 0 b j := by
  have e : idx_main_v11 (idx_main_v12 (ix2 b j)) = ix3 (0 : Fin 4) b j := funext fun a => Fin.ext (by
    have hb := b.isLt; have hj := j.isLt
    match a with
    | ⟨0, _⟩ => rfl
    | ⟨1, _⟩ => show (b.val * 1024 + j.val) / 1024 % 16384 = b.val; omega
    | ⟨2, _⟩ => show (b.val * 1024 + j.val) % 1024 = j.val; omega)
  rw [val_main_v12_apply, val_main_v11_apply, e, gates_apply]

theorem gate1_apply (b : Fin 16384) (j : Fin 1024) :
    val_main_v15 (F := Ideal) x0 x1 x3 x4 x5 x6 (ix2 b j) = pre x0 x1 x3 x5 x4 x6 1 b j := by
  have e : idx_main_v14 (idx_main_v15 (ix2 b j)) = ix3 (1 : Fin 4) b j := funext fun a => Fin.ext (by
    have hb := b.isLt; have hj := j.isLt
    match a with
    | ⟨0, _⟩ => rfl
    | ⟨1, _⟩ => show (b.val * 1024 + j.val) / 1024 % 16384 = b.val; omega
    | ⟨2, _⟩ => show (b.val * 1024 + j.val) % 1024 = j.val; omega)
  rw [val_main_v15_apply, val_main_v14_apply, e, gates_apply]

theorem gate2_apply (b : Fin 16384) (j : Fin 1024) :
    val_main_v23 (F := Ideal) x0 x1 x3 x4 x5 x6 (ix2 b j) = pre x0 x1 x3 x5 x4 x6 2 b j := by
  have e : idx_main_v22 (idx_main_v23 (ix2 b j)) = ix3 (2 : Fin 4) b j := funext fun a => Fin.ext (by
    have hb := b.isLt; have hj := j.isLt
    match a with
    | ⟨0, _⟩ => rfl
    | ⟨1, _⟩ => show (b.val * 1024 + j.val) / 1024 % 16384 = b.val; omega
    | ⟨2, _⟩ => show (b.val * 1024 + j.val) % 1024 = j.val; omega)
  rw [val_main_v23_apply, val_main_v22_apply, e, gates_apply]

theorem gate3_apply (b : Fin 16384) (j : Fin 1024) :
    val_main_v31 (F := Ideal) x0 x1 x3 x4 x5 x6 (ix2 b j) = pre x0 x1 x3 x5 x4 x6 3 b j := by
  have e : idx_main_v30 (idx_main_v31 (ix2 b j)) = ix3 (3 : Fin 4) b j := funext fun a => Fin.ext (by
    have hb := b.isLt; have hj := j.isLt
    match a with
    | ⟨0, _⟩ => rfl
    | ⟨1, _⟩ => show (b.val * 1024 + j.val) / 1024 % 16384 = b.val; omega
    | ⟨2, _⟩ => show (b.val * 1024 + j.val) % 1024 = j.val; omega)
  rw [val_main_v31_apply, val_main_v30_apply, e, gates_apply]

/-- The candidate: tanh of gate 0's pre-activation. -/
theorem candidate_apply (b : Fin 16384) (j : Fin 1024) :
    val_main_v13 (F := Ideal) x0 x1 x3 x4 x5 x6 (ix2 b j) = Ideal.tanh (pre x0 x1 x3 x5 x4 x6 0 b j) := by
  rw [val_main_v13_apply, gate0_apply]
  rfl

/-- The input gate: 1 / (1 + e^(−v)) of gate 1's pre-activation is its logistic value. -/
theorem input_gate_apply (b : Fin 16384) (j : Fin 1024) :
    val_main_v21 (F := Ideal) x0 x1 x3 x4 x5 x6 (ix2 b j) = Ideal.logistic (pre x0 x1 x3 x5 x4 x6 1 b j) := by
  rw [val_main_v21_apply, val_main_v20_apply, val_main_cst_0_apply, val_main_v19_apply, val_main_v18_apply,
    val_main_cst_apply, val_main_v17_apply, val_main_v16_apply, gate1_apply]
  simp only [Ideal.ofBits_def, Ideal.ofBits_one_f32, Ideal.hostDivf_def, Ideal.addf_def, Ideal.hostUnary_exp_def,
    Ideal.hostNegf_def, Ideal.negf_def]
  rfl

/-- The forget gate, from gate 2's. -/
theorem forget_gate_apply (b : Fin 16384) (j : Fin 1024) :
    val_main_v29 (F := Ideal) x0 x1 x3 x4 x5 x6 (ix2 b j) = Ideal.logistic (pre x0 x1 x3 x5 x4 x6 2 b j) := by
  rw [val_main_v29_apply, val_main_v28_apply, val_main_cst_2_apply, val_main_v27_apply, val_main_v26_apply,
    val_main_cst_1_apply, val_main_v25_apply, val_main_v24_apply, gate2_apply]
  simp only [Ideal.ofBits_def, Ideal.ofBits_one_f32, Ideal.hostDivf_def, Ideal.addf_def, Ideal.hostUnary_exp_def,
    Ideal.hostNegf_def, Ideal.negf_def]
  rfl

/-- The output gate, from gate 3's. -/
theorem output_gate_apply (b : Fin 16384) (j : Fin 1024) :
    val_main_v37 (F := Ideal) x0 x1 x3 x4 x5 x6 (ix2 b j) = Ideal.logistic (pre x0 x1 x3 x5 x4 x6 3 b j) := by
  rw [val_main_v37_apply, val_main_v36_apply, val_main_cst_4_apply, val_main_v35_apply, val_main_v34_apply,
    val_main_cst_3_apply, val_main_v33_apply, val_main_v32_apply, gate3_apply]
  simp only [Ideal.ofBits_def, Ideal.ofBits_one_f32, Ideal.hostDivf_def, Ideal.addf_def, Ideal.hostUnary_exp_def,
    Ideal.hostNegf_def, Ideal.negf_def]
  rfl

/-- The reference's second result is the new cell state. -/
theorem cell_eq : val_main_v40 (F := Ideal) x0 x1 x2 x3 x4 x5 x6 = cellArr x0 x1 x2 x3 x5 x4 x6 := by
  funext i
  obtain ⟨b, j, rfl⟩ : ∃ (b : Fin 16384) (j : Fin 1024), i = ix2 b j := ⟨i 0, i 1, eq_ix2 i⟩
  rw [val_main_v40_apply, val_main_v38_apply, val_main_v39_apply, forget_gate_apply, input_gate_apply, candidate_apply,
    cellArr_apply]
  rfl

/-- The reference's first result is the new hidden state. -/
theorem hidden_eq : val_main_v42 (F := Ideal) x0 x1 x2 x3 x4 x5 x6 = hiddenArr x0 x1 x2 x3 x5 x4 x6 := by
  funext i
  obtain ⟨b, j, rfl⟩ : ∃ (b : Fin 16384) (j : Fin 1024), i = ix2 b j := ⟨i 0, i 1, eq_ix2 i⟩
  rw [val_main_v42_apply, val_main_v41_apply, output_gate_apply, congrFun (cell_eq x0 x1 x2 x3 x5 x4 x6) (ix2 b j),
    cellArr_apply, hiddenArr_apply]
  rfl

end Cert.ReferenceIdeal.RefCell

end
-- ==== Proof.lean ====
/-
  An LSTM cell over a batch of 16384 rows and 1024 hidden units: the kernel against its reference, over the extended reals.

  Both programs compute, for each gate g, the pre-activation x·Wx[g]ᵀ + h·Rh[g]ᵀ + bx[g] + bh[g], then
  c' = σ(pre 2)·c + σ(pre 1)·tanh(pre 0) and h' = σ(pre 3)·tanh(c'), and return (h', c').
  The kernel walks the batch in 64 blocks of 256 rows, multiplies by weight stacks the program transposed beforehand,
  adds the two products first and the two biases after, and applies the logistic function as one operation. The reference
  forms all four gates at once with the weights as the left factor, adds each product to its own bias first, and writes the
  logistic function as 1 / (1 + e^(−v)). Over the extended reals these agree entry by entry: a change of float format is
  the identity, products commute, four summands regroup in any commutative monoid, and the logistic function is that
  quotient by definition — so no finiteness of the inputs is used. Both sides are shown equal to one specification
  (the cell as a function of the seven arrays), the kernel through its blocks and the reference through its operations
  read at an index.

  The three frames are the generated ones (the reference's is its generated run with the results dropped); the
  idealization changed nothing in the kernel, so there is nothing to preserve.
-/
import proofs.«159723_j45140106281360_1_alg».proof.Defs
import proofs.«159723_j45140106281360_1_alg».proof.Proof.Gen.Kernel
import proofs.«159723_j45140106281360_1_alg».proof.Proof.Gen.Kernel.Skeleton
import proofs.«159723_j45140106281360_1_alg».proof.Proof.Gen.Kernel.Launch
import proofs.«159723_j45140106281360_1_alg».proof.Proof.Gen.Kernel.Points
import proofs.«159723_j45140106281360_1_alg».proof.Proof.Gen.Kernel.Frame
import proofs.«159723_j45140106281360_1_alg».proof.Proof.Gen.KernelIdeal
import proofs.«159723_j45140106281360_1_alg».proof.Proof.Gen.KernelIdeal.Skeleton
import proofs.«159723_j45140106281360_1_alg».proof.Proof.Gen.KernelIdeal.Launch
import proofs.«159723_j45140106281360_1_alg».proof.Proof.Gen.KernelIdeal.Points
import proofs.«159723_j45140106281360_1_alg».proof.Proof.Gen.KernelIdeal.Frame
import proofs.«159723_j45140106281360_1_alg».proof.Proof.Gen.ReferenceIdeal
import proofs.«159723_j45140106281360_1_alg».proof.Proof.Gen.Pre_finite_inputs
import proofs.«159723_j45140106281360_1_alg».proof.Proof.Gen.KernelIdeal.Value
import proofs.«159723_j45140106281360_1_alg».proof.Proof.Gen.ReferenceIdeal.Run
import proofs.«159723_j45140106281360_1_alg».proof.Proof.Gen.ReferenceIdeal.Read
import proofs.«159723_j45140106281360_1_alg».proof.Proof.KernelArrays
import proofs.«159723_j45140106281360_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- From arguments that agree, the kernel's two results and the reference's two results are the specification's hidden
    and cell arrays of those arguments. -/
theorem algebraic : Cert.algebraic_KernelIdeal_ReferenceIdeal := by
  intro m ρ m' ρ' _ hagree
  refine ⟨fun c => Cert.KernelIdeal.Arrays.hiddenOf m c, fun c => Cert.KernelIdeal.Arrays.cellOf m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v42_eq, Cert.ReferenceIdeal.RefCell.hidden_eq, a0, a1, a2, a3, a4, a5, a6]
  · obtain ⟨a0, a1, a2, a3, a4, a5, a6⟩ := hagree c
    refine (Cert.ReferenceIdeal.Read.val_main_v40_eq _ _ _ _ _ _ _).trans ?_
    rw [Cert.ReferenceIdeal.RefCell.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
